-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S10000x64 : Shape := ⟨2, ![10000, 64]⟩
abbrev S1x64 : Shape := ⟨2, ![1, 64]⟩

abbrev nBuf : Space → Nat
  | .hbm => 77
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v55) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.DenseSpec.lean ====
/-
  The dense layer both programs end with, as one function of three arrays.

  Both programs first aggregate the node features over the graph's edges (two hops of a normalised neighbour
  sum); call the aggregate `h`, a matrix of `n` rows and 64 columns. Both then apply one linear layer with
  weight `W` (64 × 64, stored output-feature major) and bias `b`, and clip at zero:

      out (p, q) = max (∑ k, h (p, k) · W (q, k) + b q) 0

  on the extended reals. Row `p` of the result depends on row `p` of `h` only, so a block of rows of the result is
  the same function of the same block of rows of `h`: `denseAt` is the entry, from one row of `h`, one row of `W`
  and one bias entry; `dense` is the whole matrix.
-/
import Idealize.ShloMosaic.PureOps.Ideal
import Idealize.ShloMosaic.Lib.ValueIdx

noncomputable section

namespace Cert.DenseSpec

open Idealize.ShloMosaic Idealize.ShloMosaic.ValueIdx

/-- One entry of the layer: the inner product of a feature row with a weight row, plus the bias entry, clipped at zero. -/
def denseAt (hrow wrow : Fin 64 → EReal) (bq : EReal) : EReal :=
  max ((∑ k : Fin 64, hrow k * wrow k) + bq) 0

/-- The layer on a matrix of `n` feature rows: entry `(p, q)` pairs feature row `p` with weight row `q` and bias entry `q`. -/
def dense {n : Nat} (h : (⟨2, ![n, 64]⟩ : Shape).Idx → EReal) (W : (⟨2, ![64, 64]⟩ : Shape).Idx → EReal)
    (b : (⟨1, ![64]⟩ : Shape).Idx → EReal) : (⟨2, ![n, 64]⟩ : Shape).Idx → EReal :=
  fun i => denseAt (fun k => h (ix2 (i 0) k)) (fun k => W (ix2 (i 1) k)) (b (ix1 (i 1)))

/-- The layer at explicit coordinates. -/
theorem dense_ix2 {n : Nat} (h : (⟨2, ![n, 64]⟩ : Shape).Idx → EReal) (W : (⟨2, ![64, 64]⟩ : Shape).Idx → EReal)
    (b : (⟨1, ![64]⟩ : Shape).Idx → EReal) (p : Fin n) (q : Fin 64) :
    dense h W b (ix2 p q) = denseAt (fun k => h (ix2 p k)) (fun k => W (ix2 q k)) (b (ix1 q)) := rfl

end Cert.DenseSpec

end
-- ==== Proof.KernelBody.lean ====
/-
  The kernel's body at one entry.

  At a grid point the body loads a block of 10000 feature rows, the whole weight matrix and the whole bias vector, and
  stores  max (block · Wᵀ + bias) 0 : the weight is transposed in registers and multiplied into a zero accumulator, so
  entry `(p, q)` of the product is `∑ k, block (p, k) · W (q, k)`; the bias is laid out as one row and repeated down
  the block; the narrowing of both factors to sixteen bits before the product changes nothing on the extended reals.
  So the stored block is the dense layer (`DenseSpec.denseAt`) of the loaded block, entry by entry.
-/
import proofs.«170154_j87582973100260_1_alg».proof.Proof.Gen.KernelIdeal.Skeleton
import proofs.«170154_j87582973100260_1_alg».proof.Proof.DenseSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DenseBody

open Cert.KernelIdeal Cert.KernelIdeal.Gen Idealize.ShloMosaic Idealize.ShloMosaic.ValueIdx

/-! ## The product's operand indices: rows of the left factor, columns of the right, one contracted axis -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero accumulator, at entry `(p, q)`: row `p` of the left factor against column `q` of the right. -/
theorem matmul_at (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The stored value at entry `(p, q)` of the block is the dense layer's entry from row `p` of the loaded block,
    row `q` of the loaded weight and entry `q` of the loaded bias. -/
theorem pay_at (x0 : Vec Ideal S10000x64 .f32) (x1 : Vec Ideal S64x64 .f32) (x2 : Vec Ideal S64 .f32)
    (p : Fin 10000) (q : Fin 64) :
    k0_pay1 x0 x1 x2 (ix2 p q)
      = DenseSpec.denseAt (fun k => x0 (ix2 p k)) (fun k => x1 (ix2 q k)) (x2 (ix1 q)) := by
  unfold k0_pay1
  dsimp only
  rw [maximumf_apply, addf_apply, broadcast_apply, matmul_at, broadcastTo_1b_ab_apply, shapeCast_a_1a_apply]
  have hcol : ∀ k : Fin 64,
      transpose S64x64 [1, 0] (truncf (F := Ideal) .bf16 x1 bitsLt_bf16_f32) transposes_S64x64_p1_0_S64x64 (ix2 k q)
        = x1 (ix2 q k) :=
    fun k => transpose_ix2_apply (truncf (F := Ideal) .bf16 x1 bitsLt_bf16_f32) transposes_S64x64_p1_0_S64x64 k q
  simp only [truncf_apply, shapeCast_self, hcol]
  unfold DenseSpec.denseAt
  rw [Ideal.ofBits_def, Ideal.ofBits_zero_f32]

end Cert.KernelIdeal.DenseBody

end
-- ==== Proof.KernelArray.lean ====
/-
  From the blocks to the whole result array.

  The grid has ten points. Point `t` reads rows `10000·t … 10000·t + 9999` of the aggregated features (all 64 columns),
  the whole weight matrix and the whole bias vector, and writes back the same rows of the result. An entry of the dense
  layer depends on its own feature row only, so what point `t` writes back is block `t` of the dense layer of the
  WHOLE feature array (`flushed_eq`); the ten blocks tile the 100000 rows — row `r` lies in block `r / 10000` — so the
  result array ends as the dense layer of the arrays the region found (`final`, `run`).
-/
import proofs.«170154_j87582973100260_1_alg».proof.Proof.Gen.KernelIdeal.Value
import proofs.«170154_j87582973100260_1_alg».proof.Proof.KernelBody
import Idealize.ShloMosaic.Lib.Pipeline.Value
import Idealize.ShloMosaic.Lib.ValueIdx

noncomputable section

namespace Cert.KernelIdeal.DenseArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps over the ten grid points: the feature window and the result window both sit at row block `t`,
    column block 0; the weight and the bias windows never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- Row `p` of block `t` is row `10000·t + p` of the array. -/
abbrev rowOf (t : Fin cfg0.N) (p : Fin 10000) : Fin 100000 :=
  ⟨t.val * 10000 + p.val, by have := point_lt t; have := p.isLt; omega⟩

/-- Where the feature window's block at point `t` sits in its array. -/
theorem feat_emb (t : Fin cfg0.N) (p : Fin 10000) (k : Fin 64) :
    ((cfg0.win 0).blk t).view.emb (ix2 p k) = ix2 (rowOf t p) k := by
  obtain ⟨e0, e1, -, -, -, -, -⟩ := index_facts t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- The weight window's one block is the whole matrix. -/
theorem weight_emb (t : Fin cfg0.N) (q : Fin 64) (k : Fin 64) :
    ((cfg0.win 1).blk t).view.emb (ix2 q k) = ix2 q k := by
  obtain ⟨-, -, e2, e3, -, -, -⟩ := index_facts t
  funext a; apply Fin.ext
  match a with
  | ⟨0, _⟩ => show win0_1.index t (0 : Fin 2) * 64 + 1 * q.val = q.val; omega
  | ⟨1, _⟩ => show win0_1.index t (1 : Fin 2) * 64 + 1 * k.val = k.val; omega

/-- The bias window's one block is the whole vector. -/
theorem bias_emb (t : Fin cfg0.N) (q : Fin 64) :
    ((cfg0.win 2).blk t).view.emb (ix1 q) = ix1 q := by
  obtain ⟨-, -, -, -, e4, -, -⟩ := index_facts t
  funext a; apply Fin.ext
  match a with
  | ⟨0, _⟩ => show win0_2.index t (0 : Fin 1) * 64 + 1 * q.val = q.val; omega

/-- Where the result window's block at point `t` sits in its array. -/
theorem out_emb (t : Fin cfg0.N) (p : Fin 10000) (q : Fin 64) :
    ((cfg0.win 3).blk t).view.emb (ix2 p q) = ix2 (rowOf t p) q := by
  obtain ⟨-, -, -, -, -, e5, e6⟩ := index_facts t
  funext a; apply Fin.ext
  match a with
  | ⟨0, _⟩ => show win0_3.index t (0 : Fin 2) * 10000 + 1 * p.val = t.val * 10000 + p.val; omega
  | ⟨1, _⟩ => show win0_3.index t (1 : Fin 2) * 64 + 1 * q.val = q.val; omega

/-- Block `t` of the feature window, read off ANY array of the features' shape: its row `p` is the array's row `10000·t + p`. -/
theorem feat_read (t : Fin cfg0.N) (h : Vec Ideal S100000x64 .f32) (p : Fin 10000) (k : Fin 64) :
    ((cfg0.win 0).blk t).view.read (Elt Ideal) h (ix2 p k) = h (ix2 (rowOf t p) k) := by
  show h (((cfg0.win 0).blk t).view.emb (ix2 p k)) = _
  rw [feat_emb]

/-- The weight window's block, read off any matrix of the weight's shape, is that matrix. -/
theorem weight_read (t : Fin cfg0.N) (W : Vec Ideal S64x64 .f32) (q k : Fin 64) :
    ((cfg0.win 1).blk t).view.read (Elt Ideal) W (ix2 q k) = W (ix2 q k) := by
  show W (((cfg0.win 1).blk t).view.emb (ix2 q k)) = _
  rw [weight_emb]

/-- The bias window's block, read off any vector of the bias's shape, is that vector. -/
theorem bias_read (t : Fin cfg0.N) (b : Vec Ideal S64 .f32) (q : Fin 64) :
    ((cfg0.win 2).blk t).view.read (Elt Ideal) b (ix1 q) = b (ix1 q) := by
  show b (((cfg0.win 2).blk t).view.emb (ix1 q)) = _
  rw [bias_emb]

/-- Block `t` of the dense layer of ANY three arrays, at `(p, q)`: the layer's entry from the feature array's row
    `10000·t + p`, the weight's row `q` and the bias's entry `q`. -/
theorem dense_read (t : Fin cfg0.N) (h : Vec Ideal S100000x64 .f32) (W : Vec Ideal S64x64 .f32) (b : Vec Ideal S64 .f32)
    (p : Fin 10000) (q : Fin 64) :
    ((cfg0.win 3).blk t).view.read (Elt Ideal) (DenseSpec.dense h W b) (ix2 p q)
      = DenseSpec.denseAt (fun k => h (ix2 (rowOf t p) k)) (fun k => W (ix2 q k)) (b (ix1 q)) := by
  show DenseSpec.dense h W b (((cfg0.win 3).blk t).view.emb (ix2 p q)) = _
  rw [out_emb, DenseSpec.dense_ix2]

/-- The three arrays the region finds, at their literal types: the aggregated features, the weight, the bias. -/
abbrev feat (c : Dev nD) : Vec Ideal S100000x64 .f32 := V m c main_v55
abbrev weight (c : Dev nD) : Vec Ideal S64x64 .f32 := V m c main_arg1
abbrev bias (c : Dev nD) : Vec Ideal S64 .f32 := V m c main_arg2

/-- WHAT POINT `t` WRITES BACK is block `t` of the dense layer of the arrays as the region finds them. -/
theorem flushed_eq (c : Dev nD) (t : Fin cfg0.N) :
    (dats m 0 c).flushed 3 t
      = ((cfg0.win 3).blk t).view.read (Elt Ideal) (DenseSpec.dense (feat m c) (weight m c) (bias m c)) := by
  rw [Value.flushed3]
  unfold out0_3
  rw [View.canon_unit_zero origin2]
  simp only [View.ld_unit_zero (S := S10000x64) origin2, View.ld_unit_zero (S := S64x64) origin2,
    View.ld_unit_zero (S := S64) origin1]
  funext j
  obtain ⟨p, q, rfl⟩ : ∃ (p : Fin 10000) (q : Fin 64), j = ix2 p q := ⟨j 0, j 1, eq_ix2 j⟩
  refine (DenseBody.pay_at (iblk m c 0 t) (iblk m c 1 t) (iblk m c 2 t) p q).trans ?_
  rw [dense_read]
  have hf : ∀ k : Fin 64, iblk m c 0 t (ix2 p k) = feat m c (ix2 (rowOf t p) k) := fun k => feat_read t (feat m c) p k
  have hw : ∀ k : Fin 64, iblk m c 1 t (ix2 q k) = weight m c (ix2 q k) := fun k => weight_read t (weight m c) q k
  have hb : iblk m c 2 t (ix1 q) = bias m c (ix1 q) := bias_read t (bias m c) q
  rw [funext hf, funext hw, hb]

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v56).slice (win0_3.rect t)).set ↔ _
  rw [View.set_slice_whole, Rect.mem_set_unit]
  exact Iff.rfl

/-- Every index of the result array lies in some point's block: row `r` in block `r / 10000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, lt_of_lt_of_eq (by omega) N_0.symm⟩
  obtain ⟨-, -, -, -, -, e5, e6⟩ := index_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the run: the dense layer of the aggregated features, the weight and the bias. -/
theorem final (c : Dev nD) :
    (dats m 0 c).arrAt 3 cfg0.N = DenseSpec.dense (feat m c) (weight m c) (bias m c) :=
  (dats m 0 c).arrAt_eq_of_cover 3 (DenseSpec.dense (feat m c) (weight m c) (bias m c))
    (fun t _ => flushed_eq m c t) covered

/-- The kernel's run, read: the result array is the dense layer of the aggregate the host operations leave and of the
    weight and bias as launched; the arguments end unchanged. -/
theorem run : θ_run defs (onTc (τ := τ) (main (F := Ideal))) ⟨m, fun _ => 0, ρ⟩ fun r => ∀ c : Dev nD,
      r.2.mem ((c : Thread nD τ).loc main_v56)
        = DenseSpec.dense (feat m c) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c]
      show DenseSpec.dense (feat m c) (V m c main_arg1) (V m c main_arg2) = _
      rw [V_main_arg1, V_main_arg2], (h c).2⟩)
    (Value.run_blocks m ρ)

end Cert.KernelIdeal.DenseArray

end
-- ==== Proof.RefDense.lean ====
/-
  The reference's last six operations are the dense layer of the aggregate.

  After the two hops of aggregation the reference transposes the weight, contracts the aggregate's column axis with
  the transposed weight's row axis, repeats the bias down the rows, adds, and takes the maximum with a zero splat. Read
  at entry `(p, q)`: the product is `∑ k, h (p, k) · Wᵀ (k, q) = ∑ k, h (p, k) · W (q, k)`, the bias term is `b q`,
  and the clip is `max · 0` — the dense layer (`DenseSpec.dense`) of the aggregate, which is carried here as one
  unopened array.
-/
import proofs.«170154_j87582973100260_1_alg».proof.Proof.RefRead
import proofs.«170154_j87582973100260_1_alg».proof.Proof.DenseSpec
import Idealize.ShloMosaic.Lib.ValueIdx
import Idealize.ShloMosaic.PureOps.Ideal.Laws

noncomputable section

namespace Cert.ReferenceIdeal.DenseRef

open Cert.ReferenceIdeal Cert.ReferenceIdeal.Gen Cert.ReferenceIdeal.ReadP Idealize.ShloMosaic
open Idealize.ShloMosaic.ValueIdx

/-- The left factor's index at output entry `(p, q)` and contraction index `k` is `(p, k)`. -/
theorem left_index (p : Fin 100000) (q k : Fin 64) : lidx_main_v57 (ix2 p q) k = ix2 p k :=
  funext fun a => Fin.ext (by match a with | ⟨0, _⟩ => rfl | ⟨1, _⟩ => rfl)

/-- The right factor is the transposed weight: its entry `(k, q)` is the weight's entry `(q, k)`. -/
theorem right_index (p : Fin 100000) (q k : Fin 64) : idx_main_v56 (ridx_main_v57 (ix2 p q) k) = ix2 q k :=
  funext fun a => Fin.ext (by match a with | ⟨0, _⟩ => rfl | ⟨1, _⟩ => rfl)

/-- The bias, laid out as one row and repeated down the rows, reads entry `q` at `(p, q)`. -/
theorem bias_index (p : Fin 100000) (q : Fin 64) : idx_main_v58 (idx_main_v59 (ix2 p q)) = ix1 q :=
  funext fun a => Fin.ext (by match a with | ⟨0, _⟩ => rfl)

/-- The reference's result is the dense layer of its aggregate, of the weight and of the bias. -/
theorem result_eq (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S2x1600000, .i32⟩ : BufTy).Contents (Elt Ideal)) :
    val_main_v61 (F := Ideal) x0 x1 x2 x3 = DenseSpec.dense (val_main_v55 (F := Ideal) x0 x3) x1 x2 := by
  funext i
  obtain ⟨p, q, rfl⟩ : ∃ (p : Fin 100000) (q : Fin 64), i = ix2 p q := ⟨i 0, i 1, eq_ix2 i⟩
  rw [val_main_v61_apply, val_main_v60_apply, val_main_v57_apply, val_main_v59_apply, val_main_v58_apply,
    val_main_call1_v0_apply, val_main_call1_cst_apply, DenseSpec.dense_ix2]
  generalize val_main_v55 (F := Ideal) x0 x3 = h
  simp only [val_main_v56_apply, left_index, right_index, bias_index]
  unfold DenseSpec.denseAt
  rw [Ideal.maximumf_def, Ideal.addf_def, Ideal.ofBits_def, Ideal.ofBits_zero_f32]

end Cert.ReferenceIdeal.DenseRef

end
-- ==== Proof.Aggregate.lean ====
/-
  The aggregate the kernel's region finds is the reference's aggregate.

  Before its one kernel launch the kernel's program runs, on the host, the same seventy operations the reference begins
  with: the self-loops appended to the edge list, the degrees by a scatter-add of ones, their inverse square roots where
  positive, the edge weights as products of two gathers, and two hops of gather, scale and scatter-add. The two texts
  agree operation by operation, so the array the region finds in the aggregate's buffer is the reference's aggregate of
  the same node features and the same edge list. The chain is never opened: each side is unfolded to its composed term
  and the two terms coincide.
-/
import proofs.«170154_j87582973100260_1_alg».proof.Proof.Gen.KernelIdeal.Frame
import proofs.«170154_j87582973100260_1_alg».proof.Proof.RefRead
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 32000000 in
/-- The aggregated features as the region finds them are the reference's aggregate of the launch contents of the node
    features and of the edge list. -/
theorem aggregate_eq (c : Dev nD) :
    (V m c main_v55 : (⟨S100000x64, .f32⟩ : BufTy).Contents (Elt F))
      = Cert.ReferenceIdeal.ReadP.val_main_v55 (F := F) (m ((c : Thread nD τ).loc main_arg0)) (m ((c : Thread nD τ).loc main_arg3)) := by
  dsimp only [V]
  simp only [hostOps0, hostOps0_1, hostOps0_2, List.flatten_cons, List.flatten_nil, List.append_nil, List.cons_append,
    List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.KernelIdeal.Aggregate

end
-- ==== Proof.lean ====
/-
  The certificate: a two-hop graph convolution followed by one dense layer, the dense layer as a tiled kernel.

  Both programs aggregate the node features over the edges on the host, with the same seventy operations, and differ only
  in the last step, `max (h · Wᵀ + b) 0`: the reference as a host contraction over the whole 100000 × 64 aggregate, the
  kernel as a grid of ten blocks of 10000 rows, each a product into a zero accumulator after narrowing both factors to
  sixteen bits. On the extended reals the narrowing is the identity and both products are the same finite sum
  `∑ k, h (p, k) · W (q, k)` in the same arrangement, so no law beyond re-indexing joins the two sides and the
  precondition is never opened.

  The pieces: `DenseSpec` states the layer as one function; `KernelBody` reads the kernel's stored block at an entry;
  `KernelArray` assembles the ten blocks into the result array; `RefDense` reads the reference's last six operations;
  `Aggregate` identifies the two aggregates. The three frames are the generated ones (the reference's is its run with
  the result dropped); the idealization rewrote nothing, so `preserves` is trivial.
-/
import proofs.«170154_j87582973100260_1_alg».proof.Defs
import proofs.«170154_j87582973100260_1_alg».proof.Proof.Gen.Kernel
import proofs.«170154_j87582973100260_1_alg».proof.Proof.Gen.Kernel.Skeleton
import proofs.«170154_j87582973100260_1_alg».proof.Proof.Gen.Kernel.Launch
import proofs.«170154_j87582973100260_1_alg».proof.Proof.Gen.Kernel.Points
import proofs.«170154_j87582973100260_1_alg».proof.Proof.Gen.Kernel.Frame
import proofs.«170154_j87582973100260_1_alg».proof.Proof.Gen.KernelIdeal
import proofs.«170154_j87582973100260_1_alg».proof.Proof.Gen.KernelIdeal.Skeleton
import proofs.«170154_j87582973100260_1_alg».proof.Proof.Gen.KernelIdeal.Launch
import proofs.«170154_j87582973100260_1_alg».proof.Proof.Gen.KernelIdeal.Points
import proofs.«170154_j87582973100260_1_alg».proof.Proof.Gen.KernelIdeal.Frame
import proofs.«170154_j87582973100260_1_alg».proof.Proof.Gen.ReferenceIdeal
import proofs.«170154_j87582973100260_1_alg».proof.Proof.Gen.Pre_finite_inputs
import proofs.«170154_j87582973100260_1_alg».proof.Proof.Gen.KernelIdeal.Value
import proofs.«170154_j87582973100260_1_alg».proof.Proof.RefRun
import proofs.«170154_j87582973100260_1_alg».proof.Proof.RefRead
import proofs.«170154_j87582973100260_1_alg».proof.Proof.DenseSpec
import proofs.«170154_j87582973100260_1_alg».proof.Proof.KernelBody
import proofs.«170154_j87582973100260_1_alg».proof.Proof.KernelArray
import proofs.«170154_j87582973100260_1_alg».proof.Proof.RefDense
import proofs.«170154_j87582973100260_1_alg».proof.Proof.Aggregate
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the four arguments, the kernel's result array is the dense layer of the aggregate its
    host operations leave, and the reference's result is the dense layer of its own aggregate; the two aggregates are
    the same seventy operations of the same node features and edge list. -/
theorem algebraic : Cert.algebraic_KernelIdeal_ReferenceIdeal := by
  intro m ρ m' ρ' _ hagree
  refine ⟨_, Cert.KernelIdeal.DenseArray.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq, Cert.ReferenceIdeal.DenseRef.result_eq,
    (hagree c).1, (hagree c).2.1, (hagree c).2.2.1, (hagree c).2.2.2]
  exact congrArg (fun h => Cert.DenseSpec.dense h _ _) (Cert.KernelIdeal.Aggregate.aggregate_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
